-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x256 : Shape := ⟨2, ![512, 256]⟩
abbrev S32x32x256 : Shape := ⟨3, ![32, 32, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S32x32x256 : S_.BroadcastsInDim S32x32x256 (![] : Fin 0 → Fin S32x32x256.rank)
  reducesTo_S32x32x256_S_d0_1_2 : S32x32x256.ReducesTo [0, 1, 2] S_

variable [Facts]

def fn {F : FTy → Type} [FloatOps F] (main_arg0 : FVec F S512x256 .f32) (main_arg1 : FVec F S32x32x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S32x32x256 .f32 := Host.absf main_arg1
  let main_cst_0 : FVec F S_ .f32 := constant S_ .f32 0x7F800000#32
  let main_v5 : FVec F S32x32x256 .f32 := broadcastInDim S32x32x256 ![] bcast_S_S32x32x256 main_cst_0
  let main_v6 : IVec S32x32x256 1 := cmpf .olt main_v4 main_v5
  let main_c_1 : IVec S_ 1 := constantI S_ 1 1#1
  let main_v7 : IVec S_ 1 := (fun x v => Host.reduce IntOp.andi x v reducesTo_S32x32x256_S_d0_1_2 h_S_) main_v6 main_c_1
  let main_v8 : IVec S_ 1 := andi main_v3 main_v7
  main_v8
-- ==== Kernel.lean ====
abbrev S512x256 : Shape := ⟨2, ![512, 256]⟩
abbrev S32x32x256 : Shape := ⟨3, ![32, 32, 256]⟩
abbrev S1024x256 : Shape := ⟨2, ![1024, 256]⟩
abbrev S512x1024 : Shape := ⟨2, ![512, 1024]⟩
abbrev S128x256 : Shape := ⟨2, ![128, 256]⟩
abbrev S128x1024 : Shape := ⟨2, ![128, 1024]⟩
abbrev S128 : Shape := ⟨1, ![128]⟩
abbrev S128x1 : Shape := ⟨2, ![128, 1]⟩
abbrev S1024 : Shape := ⟨1, ![1024]⟩
abbrev S1x1024 : Shape := ⟨2, ![1, 1024]⟩
abbrev S512x32x32 : Shape := ⟨3, ![512, 32, 32]⟩

abbrev nBuf : Space → Nat
  | .hbm => 5
  | .vmem => 5
  | .smem => 0
  | _ => 0

abbrev bufTy : (tb : Table) → Fin (tcTables nBuf tb) → BufTy
  | .hbm, ⟨0, _⟩ => ⟨S512x256, .f32⟩
  | .hbm, ⟨1, _⟩ => ⟨S32x32x256, .f32⟩
  | .hbm, ⟨2, _⟩ => ⟨S1024x256, .f32⟩
  | .hbm, ⟨3, _⟩ => ⟨S512x1024, .f32⟩
  | .hbm, ⟨4, _⟩ => ⟨S512x32x32, .f32⟩
  | .local _ .vmem, ⟨0, _⟩ => ⟨S128x256, .f32⟩
  | .local _ .vmem, ⟨1, _⟩ => ⟨S128x256, .f32⟩
  | .local _ .vmem, ⟨2, _⟩ => ⟨S1024x256, .f32⟩
  | .local _ .vmem, ⟨3, _⟩ => ⟨S128x1024, .f32⟩
  | .local _ .vmem, ⟨4, _⟩ => ⟨S128x1024, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S32x32x256_S1024x256 : S32x32x256.ShapeCasts S1024x256
  inb_S128x256_S128x256_0_0 : ∀ a, (![0, 0] : Fin 2 → Nat) a + S128x256.size a ≤ S128x256.size a
  h_S128x256 : 0 < S128x256.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  reduces_S128x256_S128 : S128x256.Reduces [1] S128
  shapeCasts_S128_S128x1 : S128.ShapeCasts S128x1
  reduces_S1024x256_S1024 : S1024x256.Reduces [1] S1024
  shapeCasts_S1024_S1x1024 : S1024.ShapeCasts S1x1024
  broadcasts_S128x1_S128x1024 : S128x1.Broadcasts S128x1024
  broadcasts_S1x1024_S128x1024 : S1x1024.Broadcasts S128x1024
  inb_S128x1024_S128x1024_0_0 : ∀ a, (![0, 0] : Fin 2 → Nat) a + S128x1024.size a ≤ S128x1024.size a
  h_S128x1024 : 0 < S128x1024.numel
  shapeCasts_S512x1024_S512x32x32 : S512x1024.ShapeCasts S512x32x32
  dot_S128x256_S1024x256_S128x1024_1_1_0_0_n_n_wf : DotDims.WF S128x256 S1024x256 S128x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S512x256.size a
  hwx0_0 : ∀ i : grid0.Coords, EltTy.bits .f32 = 32 ∨ (Rect.block (s := S512x256) S128x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .f32 = 32 ∨ (Rect.block (s := S1024x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S512x1024.size a
  hwx0_2 : ∀ i : grid0.Coords, EltTy.bits .f32 = 32 ∨ (Rect.block (s := S512x1024) S128x1024.size (cc0_transform_2 i) (hinb0_2 i)).WholeWords (EltTy.packing .f32)

variable [Facts₀]

def dot_S128x256_S1024x256_S128x1024_1_1_0_0_n_n : DotDims S128x256 S1024x256 S128x1024 where
  lhsContracting := [1]
  rhsContracting := [1]
  lhsNonContracting := [0]
  rhsNonContracting := [0]
  lhsBatch := []
  rhsBatch := []
  wf := dot_S128x256_S1024x256_S128x1024_1_1_0_0_n_n_wf

abbrev win0_0 : Pipeline.Window sig grid0 :=
  Pipeline.Window.ofSpec (Memref.whole main_arg0) S128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S512x256 : Shape := ⟨2, ![512, 256]⟩
abbrev S32x32x256 : Shape := ⟨3, ![32, 32, 256]⟩
abbrev S512x1x1x256 : Shape := ⟨4, ![512, 1, 1, 256]⟩
abbrev S1x32x32x256 : Shape := ⟨4, ![1, 32, 32, 256]⟩
abbrev S512x32x32x256 : Shape := ⟨4, ![512, 32, 32, 256]⟩
abbrev S_ : Shape := ⟨0, ![]⟩
abbrev S512x32x32 : Shape := ⟨3, ![512, 32, 32]⟩

abbrev nBuf : Space → Nat
  | .hbm => 22
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S32x32x256, .f32⟩
  | .hbm, ⟨2, _⟩ => ⟨S512x1x1x256, .f32⟩
  | .hbm, ⟨3, _⟩ => ⟨S1x32x32x256, .f32⟩
  | .hbm, ⟨4, _⟩ => ⟨S512x32x32x256, .f32⟩
  | .hbm, ⟨5, _⟩ => ⟨S512x32x32x256, .f32⟩
  | .hbm, ⟨6, _⟩ => ⟨S512x32x32x256, .f32⟩
  | .hbm, ⟨7, _⟩ => ⟨S512x32x32x256, .f32⟩
  | .hbm, ⟨8, _⟩ => ⟨S_, .f32⟩
  | .hbm, ⟨9, _⟩ => ⟨S512x32x32, .f32⟩
  | .hbm, ⟨10, _⟩ => ⟨S512x32x32, .f32⟩
  | .hbm, ⟨11, _⟩ => ⟨S_, .f32⟩
  | .hbm, ⟨12, _⟩ => ⟨S512x32x32, .f32⟩
  | .hbm, ⟨13, _⟩ => ⟨S512x32x32, .f32⟩
  | .hbm, ⟨14, _⟩ => ⟨S512x32x32, .f32⟩
  | .hbm, ⟨15, _⟩ => ⟨S_, .f32⟩
  | .hbm, ⟨16, _⟩ => ⟨S512x32x32, .f32⟩
  | .hbm, ⟨17, _⟩ => ⟨S512x32x32, .f32⟩
  | .hbm, ⟨18, _⟩ => ⟨S_, .f32⟩
  | .hbm, ⟨19, _⟩ => ⟨S512x32x32, .f32⟩
  | .hbm, ⟨20, _⟩ => ⟨S512x32x32, .f32⟩
  | .hbm, ⟨21, _⟩ => ⟨S512x32x32, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  bcast_S512x256_S512x1x1x256_0_3 : S512x256.BroadcastsInDim S512x1x1x256 (![0, 3] : Fin 2 → Fin S512x1x1x256.rank)
  bcast_S32x32x256_S1x32x32x256_1_2_3 : S32x32x256.BroadcastsInDim S1x32x32x256 (![1, 2, 3] : Fin 3 → Fin S1x32x32x256.rank)
  bcast_S1x32x32x256_S512x32x32x256_0_1_2_3 : S1x32x32x256.BroadcastsInDim S512x32x32x256 (![0, 1, 2, 3] : Fin 4 → Fin S512x32x32x256.rank)
  bcast_S512x1x1x256_S512x32x32x256_0_1_2_3 : S512x1x1x256.BroadcastsInDim S512x32x32x256 (![0, 1, 2, 3] : Fin 4 → Fin S512x32x32x256.rank)
  reducesTo_S512x32x32x256_S512x32x32_d3 : S512x32x32x256.ReducesTo [3] S512x32x32
  h_S_ : 0 < S_.numel
  bcast_S_S512x32x32 : S_.BroadcastsInDim S512x32x32 (![] : Fin 0 → Fin S512x32x32.rank)

variable [Facts₀]

class Facts : Prop extends Facts₀ where

variable [Facts]
-- ==== Proof.LibRows.lean ====
/-
  Row-wise reading of two-dimensional arrays at the ideal values, for any number of rows.

  A network that treats every row of its input alike (a chain of affine layers, pointwise
  functions, joins of feature vectors and reductions along the feature axis) is one function of a
  single row. This file says so layer by layer, at the level of whole arrays: an array is
  `ofRows f` when its row `i` is `f i`, and each layer sends `ofRows f` to `ofRows` of the
  layer's row function applied to `f i`. The statements hold for every row count, so the same
  lemma reads a block of rows and the whole array.

  * `lin w b v`: the affine map `j ↦ (∑ₖ v k · w (j,k)) + b j` (weights stored output-major).
  * `cat u v`: two feature vectors joined.
  * `rowMax`, `rowSum`: the fold of `max` from `⊥`, and the sum, over a row.
-/
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Idealize.ShloMosaic.Rows

open Idealize.ShloMosaic Idealize.ShloMosaic.ValueIdx

variable {N K M : ℕ}

/-! ## Arrays as families of rows -/

/-- The array whose row `i` is `f i`. -/
def ofRows (f : Fin N → Fin K → EReal) : FVec Ideal ⟨2, ![N, K]⟩ .f32 := fun i => f (i 0) (i 1)

/-- Row `i` of an array. -/
def rowOf (A : FVec Ideal ⟨2, ![N, K]⟩ .f32) (i : Fin N) : Fin K → EReal := fun k => A (ix2 i k)

theorem rowOf_ofRows (f : Fin N → Fin K → EReal) (i : Fin N) : rowOf (ofRows f) i = f i := rfl

theorem ofRows_apply (f : Fin N → Fin K → EReal) (i : Fin N) (k : Fin K) : ofRows f (ix2 i k) = f i k := rfl

theorem ofRows_rowOf (A : FVec Ideal ⟨2, ![N, K]⟩ .f32) : ofRows (rowOf A) = A :=
  funext fun i => (congrArg A (eq_ix2 i)).symm

/-- Two arrays are equal when they agree at every (row, column). -/
theorem ext_ix2 {A B : FVec Ideal ⟨2, ![N, K]⟩ .f32} (h : ∀ i k, A (ix2 i k) = B (ix2 i k)) : A = B :=
  funext fun j => by rw [eq_ix2 j]; exact h _ _

/-! ## A plain matrix product read at (row, column) -/

theorem plain_lhs_0 (i : (⟨2, ![N, M]⟩ : Shape).Idx) (q : (DotDims.plain N K M).contr.Idx) :
    ((DotDims.plain N K M).lhsIdx i q 0).val = (i 0).val := by
  unfold DotDims.lhsIdx
  rw [dif_neg (show ¬(0 : Fin (⟨2, ![N, K]⟩ : Shape).rank) ∈ (DotDims.plain N K M).lhsBatch from List.not_mem_nil),
    dif_pos (show (0 : Fin (⟨2, ![N, K]⟩ : Shape).rank) ∈ (DotDims.plain N K M).lhsNonContracting from List.mem_singleton.mpr rfl)]
  rfl

theorem plain_lhs_1 (i : (⟨2, ![N, M]⟩ : Shape).Idx) (q : (DotDims.plain N K M).contr.Idx) :
    ((DotDims.plain N K M).lhsIdx i q 1).val = (q ⟨0, Nat.one_pos⟩).val :=
  (DotDims.plain N K M).lhsIdx_val_of_single rfl i q

theorem plain_rhs_0 (i : (⟨2, ![N, M]⟩ : Shape).Idx) (q : (DotDims.plain N K M).contr.Idx) :
    ((DotDims.plain N K M).rhsIdx i q 0).val = (q ⟨0, Nat.one_pos⟩).val :=
  (DotDims.plain N K M).rhsIdx_val_of_single rfl i q

theorem plain_rhs_1 (i : (⟨2, ![N, M]⟩ : Shape).Idx) (q : (DotDims.plain N K M).contr.Idx) :
    ((DotDims.plain N K M).rhsIdx i q 1).val = (i 1).val := by
  unfold DotDims.rhsIdx
  rw [dif_neg (show ¬(1 : Fin (⟨2, ![K, M]⟩ : Shape).rank) ∈ (DotDims.plain N K M).rhsBatch from List.not_mem_nil),
    dif_pos (show (1 : Fin (⟨2, ![K, M]⟩ : Shape).rank) ∈ (DotDims.plain N K M).rhsNonContracting from List.mem_singleton.mpr rfl)]
  rfl

/-- The sum over the one contracted axis, re-indexed by its coordinate. -/
theorem plain_sum (l : FVec Ideal ⟨2, ![N, K]⟩ .f32) (r : FVec Ideal ⟨2, ![K, M]⟩ .f32) (i : Fin N) (j : Fin M) :
    (∑ q : (DotDims.plain N K M).contr.Idx, l ((DotDims.plain N K M).lhsIdx (ix2 i j) q) * r ((DotDims.plain N K M).rhsIdx (ix2 i j) q))
      = ∑ k : Fin K, l (ix2 i k) * r (ix2 k j) := by
  rw [← Equiv.sum_comp (contrEquiv1 (DotDims.plain N K M) K rfl rfl).symm]
  refine Finset.sum_congr rfl fun k _ => ?_
  have hk := contrEquiv1_symm_val (DotDims.plain N K M) K rfl rfl k
  have el : (DotDims.plain N K M).lhsIdx (ix2 i j) ((contrEquiv1 (DotDims.plain N K M) K rfl rfl).symm k) = ix2 i k :=
    funext fun a => Fin.ext (by
      match a with
      | ⟨0, _⟩ => exact plain_lhs_0 _ _
      | ⟨1, _⟩ => exact (plain_lhs_1 _ _).trans hk)
  have er : (DotDims.plain N K M).rhsIdx (ix2 i j) ((contrEquiv1 (DotDims.plain N K M) K rfl rfl).symm k) = ix2 k j :=
    funext fun a => Fin.ext (by
      match a with
      | ⟨0, _⟩ => exact (plain_rhs_0 _ _).trans hk
      | ⟨1, _⟩ => exact plain_rhs_1 _ _)
  rw [el, er]

/-- A kernel's matrix product into a zero accumulator, at (i, j): the sum over k of l (i,k) · r (k,j). -/
theorem matmul_plain_apply (l : FVec Ideal ⟨2, ![N, K]⟩ .f32) (r : FVec Ideal ⟨2, ![K, M]⟩ .f32) (i : Fin N) (j : Fin M) :
    matmul (DotDims.plain N K M) none l r (constant ⟨2, ![N, M]⟩ .f32 0x00000000#32) (ix2 i j)
      = ∑ k : Fin K, l (ix2 i k) * r (ix2 k j) := by
  show FloatOps.matmul (DotDims.plain N K M) none l r (constant ⟨2, ![N, M]⟩ .f32 0x00000000#32) (ix2 i j) = _
  rw [Ideal.matmul_constant_zero_apply]
  exact plain_sum l r i j

/-- The host's product, at (i, j): the same sum. -/
theorem dotGeneral_plain_apply (l : FVec Ideal ⟨2, ![N, K]⟩ .f32) (r : FVec Ideal ⟨2, ![K, M]⟩ .f32) (i : Fin N) (j : Fin M) :
    Host.dotGeneral (DotDims.plain N K M) none l r (ix2 i j) = ∑ k : Fin K, l (ix2 i k) * r (ix2 k j) := by
  show FloatOps.dotGeneral (DotDims.plain N K M) none .single l r (ix2 i j) = _
  rw [Ideal.dotGeneral_apply]
  exact plain_sum l r i j

/-! ## An affine layer -/

/-- One affine layer on a row `v`: output feature `j` is `(∑ₖ v k · w (j,k)) + b j`. -/
def lin (w : FVec Ideal ⟨2, ![M, K]⟩ .f32) (b : FVec Ideal ⟨1, ![M]⟩ .f32) (v : Fin K → EReal) : Fin M → EReal :=
  fun j => (∑ k : Fin K, v k * w (ix2 j k)) + b (ix1 j)

/-- The kernel's spelling of an affine layer: product with the transposed weights into a zero accumulator, plus the
    bias laid along every row. -/
theorem klin_eq (h : FVec Ideal ⟨2, ![N, K]⟩ .f32) (w : FVec Ideal ⟨2, ![M, K]⟩ .f32) (b : FVec Ideal ⟨1, ![M]⟩ .f32)
    (tr : (⟨2, ![M, K]⟩ : Shape).Transposes [1, 0] ⟨2, ![K, M]⟩) (sc : (⟨1, ![M]⟩ : Shape).ShapeCasts ⟨2, ![1, M]⟩)
    (bc : (⟨2, ![1, M]⟩ : Shape).Broadcasts ⟨2, ![N, M]⟩) :
    addf (matmul (DotDims.plain N K M) none h (transpose ⟨2, ![K, M]⟩ [1, 0] w tr) (constant ⟨2, ![N, M]⟩ .f32 0x00000000#32))
        (broadcastTo ⟨2, ![N, M]⟩ (shapeCast ⟨2, ![1, M]⟩ b sc) bc)
      = ofRows fun i => lin w b (rowOf h i) := by
  refine ext_ix2 fun i j => ?_
  rw [addf_apply, matmul_plain_apply, broadcastTo_1b_ab_apply, shapeCast_a_1a_apply, ofRows_apply]
  unfold lin rowOf
  exact congrArg (· + b (ix1 j)) (Finset.sum_congr rfl fun k _ => by rw [transpose_ix2_apply])

/-- The host's spelling: `dot_general` with the transposed weights, plus the bias broadcast in two steps. -/
theorem hlin_eq (h : FVec Ideal ⟨2, ![N, K]⟩ .f32) (w : FVec Ideal ⟨2, ![M, K]⟩ .f32) (b : FVec Ideal ⟨1, ![M]⟩ .f32)
    (tr : (⟨2, ![M, K]⟩ : Shape).Transposes [1, 0] ⟨2, ![K, M]⟩)
    (b1 : (⟨1, ![M]⟩ : Shape).BroadcastsInDim ⟨2, ![1, M]⟩ ![1])
    (b2 : (⟨2, ![1, M]⟩ : Shape).BroadcastsInDim ⟨2, ![N, M]⟩ ![0, 1]) :
    addf (Host.dotGeneral (DotDims.plain N K M) none h (transpose ⟨2, ![K, M]⟩ [1, 0] w tr))
        (broadcastInDim ⟨2, ![N, M]⟩ ![0, 1] b2 (broadcastInDim ⟨2, ![1, M]⟩ ![1] b1 b))
      = ofRows fun i => lin w b (rowOf h i) := by
  refine ext_ix2 fun i j => ?_
  rw [addf_apply, dotGeneral_plain_apply, Idealize.ShloMosaic.broadcastInDim_oneRow_apply, ofRows_apply]
  have e : broadcastInDim ⟨2, ![1, M]⟩ ![1] b1 b (ix2 (0 : Fin 1) j) = b (ix1 j) :=
    broadcastInDim_apply ![1] b1 b (ix2 (0 : Fin 1) j) (ix1 j) fun a => by
      match a with
      | ⟨0, _⟩ =>
        show j.val = if M = 1 then 0 else j.val
        split
        · have := j.isLt; omega
        · rfl
  rw [e]
  unfold lin rowOf
  exact congrArg (· + b (ix1 j)) (Finset.sum_congr rfl fun k _ => by rw [transpose_ix2_apply])

/-! ## Two feature vectors joined -/

/-- `u` followed by `v`. -/
def cat {A B C : ℕ} (hC : A + B = C) (u : Fin A → EReal) (v : Fin B → EReal) : Fin C → EReal :=
  fun j => if h : j.val < A then u ⟨j.val, h⟩ else v ⟨j.val - A, by have := j.isLt; omega⟩

/-- Joining two arrays along the feature axis joins their rows. -/
theorem cat_eq {A B C : ℕ} (hC : A + B = C) (x₁ : FVec Ideal ⟨2, ![N, A]⟩ .f32) (x₂ : FVec Ideal ⟨2, ![N, B]⟩ .f32)
    (hc : Shape.Concatenates [⟨2, ![N, A]⟩, ⟨2, ![N, B]⟩] ⟨2, ![N, C]⟩ 1) :
    concatenate ⟨2, ![N, C]⟩ 1 [⟨⟨2, ![N, A]⟩, x₁⟩, ⟨⟨2, ![N, B]⟩, x₂⟩] hc
      = ofRows fun i => cat hC (rowOf x₁ i) (rowOf x₂ i) := by
  refine ext_ix2 fun i j => ?_
  rw [ofRows_apply]
  unfold cat rowOf
  by_cases h : j.val < A
  · rw [dif_pos h]
    exact concatenate_pair_apply_left 1 x₁ x₂ hc (ix2 i j) rfl (ix2 i ⟨j.val, h⟩) fun b => by
      match b with
      | ⟨0, _⟩ => rfl
      | ⟨1, _⟩ => rfl
  · rw [dif_neg h]
    have hj := j.isLt
    refine concatenate_pair_apply_right 1 x₁ x₂ hc (ix2 i j) rfl rfl (ix2 i ⟨j.val - A, by omega⟩) (fun b hb => ?_) ?_
    · match b with
      | ⟨0, _⟩ => rfl
      | ⟨1, _⟩ => exact absurd rfl hb
    · show j.val - A + A = j.val
      omega

/-! ## Pointwise operations, row by row -/

section Pointwise
variable (x y : FVec Ideal ⟨2, ![N, K]⟩ .f32)

theorem sin_rows : sin x = ofRows fun i k => Ideal.sin (rowOf x i k) := ext_ix2 fun _ _ => rfl
theorem cos_rows : cos x = ofRows fun i k => Ideal.cos (rowOf x i k) := ext_ix2 fun _ _ => rfl
theorem exp_rows : exp x = ofRows fun i k => Ideal.exp (rowOf x i k) := ext_ix2 fun _ _ => rfl
theorem hsin_rows : Host.sin x = ofRows fun i k => Ideal.sin (rowOf x i k) := ext_ix2 fun _ _ => rfl
theorem hcos_rows : Host.cos x = ofRows fun i k => Ideal.cos (rowOf x i k) := ext_ix2 fun _ _ => rfl
theorem hexp_rows : Host.exp x = ofRows fun i k => Ideal.exp (rowOf x i k) := ext_ix2 fun _ _ => rfl
theorem addf_rows : addf x y = ofRows fun i k => rowOf x i k + rowOf y i k := ext_ix2 fun _ _ => rfl
theorem subf_rows : subf x y = ofRows fun i k => rowOf x i k - rowOf y i k := ext_ix2 fun _ _ => rfl
theorem mulf_rows : mulf x y = ofRows fun i k => rowOf x i k * rowOf y i k := ext_ix2 fun _ _ => rfl
theorem maximumf_rows : maximumf x y = ofRows fun i k => max (rowOf x i k) (rowOf y i k) := ext_ix2 fun _ _ => rfl
theorem divf_rows : divf x y = ofRows fun i k => Ideal.div (rowOf x i k) (rowOf y i k) := ext_ix2 fun _ _ => rfl
theorem hdivf_rows : Host.divf x y = ofRows fun i k => Ideal.div (rowOf x i k) (rowOf y i k) := ext_ix2 fun _ _ => rfl

end Pointwise

/-- A row of a kernel's scalar splat. -/
theorem rowOf_broadcast (b : BitVec 32) (i : Fin N) :
    rowOf (broadcast ⟨2, ![N, K]⟩ (Scalar.ofBits (F := Ideal) .f32 b)) i = fun _ => Ideal.ofBits .f32 b := rfl

/-- A row of the host's scalar constant broadcast to an array. -/
theorem rowOf_broadcastInDim_const (b : BitVec 32) (hb : (⟨0, ![]⟩ : Shape).BroadcastsInDim ⟨2, ![N, K]⟩ ![]) (i : Fin N) :
    rowOf (broadcastInDim ⟨2, ![N, K]⟩ ![] hb (constant (F := Ideal) ⟨0, ![]⟩ .f32 b)) i = fun _ => Ideal.ofBits .f32 b :=
  funext fun k => broadcastInDim_scalar_apply hb _ (ix2 i k)

/-! ## One value per row -/

/-- The one-axis array whose entry `i` is `f i`. -/
def ofVals (f : Fin N → EReal) : FVec Ideal ⟨1, ![N]⟩ .f32 := fun i => f (i 0)

/-- Entry `i` of a one-axis array. -/
def valOf (c : FVec Ideal ⟨1, ![N]⟩ .f32) (i : Fin N) : EReal := c (ix1 i)

theorem valOf_ofVals (f : Fin N → EReal) (i : Fin N) : valOf (ofVals f) i = f i := rfl

theorem ext_ix1 {a b : FVec Ideal ⟨1, ![N]⟩ .f32} (h : ∀ i, a (ix1 i) = b (ix1 i)) : a = b :=
  funext fun j => by rw [eq_ix1 j]; exact h _

theorem maximumf_vals (a b : FVec Ideal ⟨1, ![N]⟩ .f32) : maximumf a b = ofVals fun i => max (valOf a i) (valOf b i) :=
  ext_ix1 fun _ => rfl

theorem valOf_broadcast (b : BitVec 32) (i : Fin N) :
    valOf (broadcast ⟨1, ![N]⟩ (Scalar.ofBits (F := Ideal) .f32 b)) i = Ideal.ofBits .f32 b := rfl

theorem valOf_broadcastInDim_const (b : BitVec 32) (hb : (⟨0, ![]⟩ : Shape).BroadcastsInDim ⟨1, ![N]⟩ ![]) (i : Fin N) :
    valOf (broadcastInDim ⟨1, ![N]⟩ ![] hb (constant (F := Ideal) ⟨0, ![]⟩ .f32 b)) i = Ideal.ofBits .f32 b :=
  broadcastInDim_scalar_apply hb _ (ix1 i)

/-- The index a reduction over the feature axis reads: row `i`, feature `k`. -/
theorem lift_ix1 (h : (⟨2, ![N, M]⟩ : Shape).Reduces [1] ⟨1, ![N]⟩) (i : Fin N) (k : Fin M) :
    h.lift (ix1 i) k = ix2 i k :=
  funext fun a => Fin.ext (by
    match a with
    | ⟨0, _⟩ => rfl
    | ⟨1, _⟩ => rfl)

/-- The largest entry of a row, folded from the word `0xFF800000`'s value. -/
def rowMax (v : Fin M → EReal) : EReal := (Finset.univ : Finset (Fin M)).fold max (Ideal.ofBits .f32 0xFF800000#32) v

/-- A kernel's maximum along the feature axis. -/
theorem kmax_eq (x : FVec Ideal ⟨2, ![N, M]⟩ .f32) (h : (⟨2, ![N, M]⟩ : Shape).Reduces [1] ⟨1, ![N]⟩)
    (hφ : FKind.Formats .f32) (hacc : (0xFF800000#32 : BitVec 32) = FKind.maximumf.neutral .f32 hφ) :
    multiReduction .maximumf [1] ⟨1, ![N]⟩ x 0xFF800000#32 h hφ hacc = ofVals fun i => rowMax (rowOf x i) := by
  refine ext_ix1 fun i => ?_
  rw [Ideal.multiReduction_maximumf_single]
  show _ = rowMax (rowOf x i)
  unfold rowMax
  congr 1
  funext k
  exact congrArg x (lift_ix1 h i k)

/-- The host's maximum along the feature axis, from the same initial word. -/
theorem hmax_eq (x : FVec Ideal ⟨2, ![N, M]⟩ .f32) (h' : (⟨2, ![N, M]⟩ : Shape).ReducesTo [1] ⟨1, ![N]⟩)
    (h : (⟨2, ![N, M]⟩ : Shape).Reduces [1] ⟨1, ![N]⟩) (hu : 0 < (⟨0, ![]⟩ : Shape).numel) :
    Host.reduce FloatOps.maximumf x (constant (F := Ideal) ⟨0, ![]⟩ .f32 0xFF800000#32) h' hu
      = ofVals fun i => rowMax (rowOf x i) := by
  refine ext_ix1 fun i => ?_
  rw [Host.reduce_eq_fold_single FloatOps.maximumf x _ h' h hu]
  show _ = rowMax (rowOf x i)
  unfold rowMax
  congr 1
  funext k
  exact congrArg x (lift_ix1 h i k)

/-- A kernel's sum along the feature axis. -/
theorem ksum_eq (x : FVec Ideal ⟨2, ![N, M]⟩ .f32) (h : (⟨2, ![N, M]⟩ : Shape).Reduces [1] ⟨1, ![N]⟩)
    (hφ : FKind.Formats .f32) (hacc : (0x00000000#32 : BitVec 32) = FKind.add.neutral .f32 hφ) :
    multiReduction .add [1] ⟨1, ![N]⟩ x 0x00000000#32 h hφ hacc = ofVals fun i => ∑ k : Fin M, rowOf x i k := by
  refine ext_ix1 fun i => ?_
  rw [Ideal.multiReduction_add_single]
  exact Finset.sum_congr rfl fun k _ => congrArg x (lift_ix1 h i k)

/-- The host's sum along the feature axis from a zero initial value. -/
theorem hsum_eq (x : FVec Ideal ⟨2, ![N, M]⟩ .f32) (h' : (⟨2, ![N, M]⟩ : Shape).ReducesTo [1] ⟨1, ![N]⟩)
    (h : (⟨2, ![N, M]⟩ : Shape).Reduces [1] ⟨1, ![N]⟩) (hu : 0 < (⟨0, ![]⟩ : Shape).numel) :
    Host.reduceAdd x (constant (F := Ideal) ⟨0, ![]⟩ .f32 0x00000000#32) h' hu
      = ofVals fun i => ∑ k : Fin M, rowOf x i k := by
  refine ext_ix1 fun i => ?_
  rw [hostReduceAdd_apply, Ideal.hostReduceAdd_single h' h]
  show Ideal.ofBits .f32 0x00000000#32 + _ = _
  rw [Ideal.ofBits_zero_f32, zero_add]
  exact Finset.sum_congr rfl fun k _ => congrArg x (lift_ix1 h i k)

/-! ## One value per row laid along the row -/

/-- The kernel's way: a unit feature axis added, then broadcast along it. -/
theorem kcol_eq (c : FVec Ideal ⟨1, ![N]⟩ .f32) (sc : (⟨1, ![N]⟩ : Shape).ShapeCasts ⟨2, ![N, 1]⟩)
    (bc : (⟨2, ![N, 1]⟩ : Shape).Broadcasts ⟨2, ![N, M]⟩) :
    broadcastTo ⟨2, ![N, M]⟩ (shapeCast ⟨2, ![N, 1]⟩ c sc) bc = ofRows fun i _ => valOf c i := by
  refine ext_ix2 fun i j => ?_
  have e1 := broadcastTo_apply (shapeCast ⟨2, ![N, 1]⟩ c sc) bc (ix2 i j) (ix2 i (0 : Fin 1)) (by
    intro a
    match a with
    | ⟨0, _⟩ =>
      show i.val = if N = 1 then 0 else i.val
      split
      · have := i.isLt; omega
      · rfl
    | ⟨1, _⟩ => rfl)
  have e2 := shapeCast_apply c sc (ix2 i (0 : Fin 1)) (ix1 i) (by
    rw [Shape.rowMajor_val_two, Shape.rowMajor_val_one]; show i.val = i.val * 1 + 0; omega)
  exact e1.trans e2

/-- A unit feature axis added to a one-axis array. -/
theorem kcol1_eq (c : FVec Ideal ⟨1, ![N]⟩ .f32) (sc : (⟨1, ![N]⟩ : Shape).ShapeCasts ⟨2, ![N, 1]⟩) :
    shapeCast ⟨2, ![N, 1]⟩ c sc = ofRows fun i _ => valOf c i := by
  refine ext_ix2 fun i j => ?_
  exact shapeCast_apply c sc (ix2 i j) (ix1 i) (by
    rw [Shape.rowMajor_val_two, Shape.rowMajor_val_one]; show i.val = i.val * 1 + j.val; have := j.isLt; omega)

/-- The host's way: two `broadcast_in_dim`s. -/
theorem hcol_eq (c : FVec Ideal ⟨1, ![N]⟩ .f32) (b1 : (⟨1, ![N]⟩ : Shape).BroadcastsInDim ⟨2, ![N, 1]⟩ ![0])
    (b2 : (⟨2, ![N, 1]⟩ : Shape).BroadcastsInDim ⟨2, ![N, M]⟩ ![0, 1]) :
    broadcastInDim ⟨2, ![N, M]⟩ ![0, 1] b2 (broadcastInDim ⟨2, ![N, 1]⟩ ![0] b1 c) = ofRows fun i _ => valOf c i := by
  refine ext_ix2 fun i j => ?_
  have e1 := broadcastInDim_apply ![0, 1] b2 (broadcastInDim ⟨2, ![N, 1]⟩ ![0] b1 c) (ix2 i j) (ix2 i (0 : Fin 1)) (by
    intro a
    match a with
    | ⟨0, _⟩ =>
      show i.val = if N = 1 then 0 else i.val
      split
      · have := i.isLt; omega
      · rfl
    | ⟨1, _⟩ => rfl)
  have e2 := broadcastInDim_apply ![0] b1 c (ix2 i (0 : Fin 1)) (ix1 i) (by
    intro a
    match a with
    | ⟨0, _⟩ =>
      show i.val = if N = 1 then 0 else i.val
      split
      · have := i.isLt; omega
      · rfl)
  exact e1.trans e2

end Idealize.ShloMosaic.Rows

end
-- ==== Proof.LibDotT.lean ====
/-
  A product with output-major weights,  a · wᵀ,  read at (row, column), at the ideal values and for
  any sizes.

  The weights `w` are stored M × K (one row per OUTPUT feature); the operand `a` is N × K. Two spellings
  of the same product:
  * the kernel's: one matrix product contracting axis 1 of BOTH operands (the right operand on its
    last axis) into a zero accumulator;
  * the host's: the weights transposed to K × M first, then a plain product contracting the left
    operand's axis 1 with the transposed weights' axis 0.
  At (i, j) each is the one sum  ∑ₖ a (i, k) · w (j, k).  The statements hold for every row count, so
  the same lemma reads a block of rows and the whole array.
-/
import proofs.«101890_g9208409883400_cont_sun_m_1029_3_alg».proof.Proof.LibRows
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.Rows

open Idealize.ShloMosaic Idealize.ShloMosaic.ValueIdx

variable {N K M : ℕ}

/-! ## The operand indices of a product whose right operand is contracted on its last axis -/

/-- The left operand's row is the result's row. -/
theorem trhs_lhs_0 (i : (⟨2, ![N, M]⟩ : Shape).Idx) (q : (DotDims.transposedRhs N K M).contr.Idx) :
    ((DotDims.transposedRhs N K M).lhsIdx i q 0).val = (i 0).val := by
  unfold DotDims.lhsIdx
  rw [dif_neg (show ¬(0 : Fin (⟨2, ![N, K]⟩ : Shape).rank) ∈ (DotDims.transposedRhs N K M).lhsBatch from List.not_mem_nil),
    dif_pos (show (0 : Fin (⟨2, ![N, K]⟩ : Shape).rank) ∈ (DotDims.transposedRhs N K M).lhsNonContracting from List.mem_singleton.mpr rfl)]
  rfl

/-- The left operand's column is the contraction coordinate. -/
theorem trhs_lhs_1 (i : (⟨2, ![N, M]⟩ : Shape).Idx) (q : (DotDims.transposedRhs N K M).contr.Idx) :
    ((DotDims.transposedRhs N K M).lhsIdx i q 1).val = (q ⟨0, Nat.one_pos⟩).val :=
  (DotDims.transposedRhs N K M).lhsIdx_val_of_single rfl i q

/-- The right operand's row is the result's column. -/
theorem trhs_rhs_0 (i : (⟨2, ![N, M]⟩ : Shape).Idx) (q : (DotDims.transposedRhs N K M).contr.Idx) :
    ((DotDims.transposedRhs N K M).rhsIdx i q 0).val = (i 1).val := by
  unfold DotDims.rhsIdx
  rw [dif_neg (show ¬(0 : Fin (⟨2, ![M, K]⟩ : Shape).rank) ∈ (DotDims.transposedRhs N K M).rhsBatch from List.not_mem_nil),
    dif_pos (show (0 : Fin (⟨2, ![M, K]⟩ : Shape).rank) ∈ (DotDims.transposedRhs N K M).rhsNonContracting from List.mem_singleton.mpr rfl)]
  rfl

/-- The right operand's column is the contraction coordinate. -/
theorem trhs_rhs_1 (i : (⟨2, ![N, M]⟩ : Shape).Idx) (q : (DotDims.transposedRhs N K M).contr.Idx) :
    ((DotDims.transposedRhs N K M).rhsIdx i q 1).val = (q ⟨0, Nat.one_pos⟩).val :=
  (DotDims.transposedRhs N K M).rhsIdx_val_of_single rfl i q

/-- The sum over the one contracted axis, re-indexed by its coordinate: the right operand is read at (column, k). -/
theorem trhs_sum {φ₁ φ₂ : FTy} (l : FVec Ideal ⟨2, ![N, K]⟩ φ₁) (r : FVec Ideal ⟨2, ![M, K]⟩ φ₂) (i : Fin N) (j : Fin M) :
    (∑ q : (DotDims.transposedRhs N K M).contr.Idx,
        l ((DotDims.transposedRhs N K M).lhsIdx (ix2 i j) q) * r ((DotDims.transposedRhs N K M).rhsIdx (ix2 i j) q))
      = ∑ k : Fin K, l (ix2 i k) * r (ix2 j k) := by
  rw [← Equiv.sum_comp (contrEquiv1 (DotDims.transposedRhs N K M) K rfl rfl).symm]
  refine Finset.sum_congr rfl fun k _ => ?_
  have hk := contrEquiv1_symm_val (DotDims.transposedRhs N K M) K rfl rfl k
  have el : (DotDims.transposedRhs N K M).lhsIdx (ix2 i j) ((contrEquiv1 (DotDims.transposedRhs N K M) K rfl rfl).symm k) = ix2 i k :=
    funext fun a => Fin.ext (by
      match a with
      | ⟨0, _⟩ => exact trhs_lhs_0 _ _
      | ⟨1, _⟩ => exact (trhs_lhs_1 _ _).trans hk)
  have er : (DotDims.transposedRhs N K M).rhsIdx (ix2 i j) ((contrEquiv1 (DotDims.transposedRhs N K M) K rfl rfl).symm k) = ix2 j k :=
    funext fun a => Fin.ext (by
      match a with
      | ⟨0, _⟩ => exact trhs_rhs_0 _ _
      | ⟨1, _⟩ => exact (trhs_rhs_1 _ _).trans hk)
  rw [el, er]

/-! ## The two spellings at (row, column) -/

/-- The kernel's spelling: a product contracting axis 1 of both operands into a zero accumulator, at (i, j), is
    ∑ₖ l (i,k) · r (j,k) — whatever the operands' float formats. -/
theorem matmul_trhs_apply {φ₁ φ₂ : FTy} (l : FVec Ideal ⟨2, ![N, K]⟩ φ₁) (r : FVec Ideal ⟨2, ![M, K]⟩ φ₂) (i : Fin N) (j : Fin M) :
    matmul (DotDims.transposedRhs N K M) none l r (constant ⟨2, ![N, M]⟩ .f32 0x00000000#32) (ix2 i j)
      = ∑ k : Fin K, l (ix2 i k) * r (ix2 j k) := by
  show FloatOps.matmul (DotDims.transposedRhs N K M) none l r (constant ⟨2, ![N, M]⟩ .f32 0x00000000#32) (ix2 i j) = _
  rw [Ideal.matmul_constant_zero_apply]
  exact trhs_sum l r i j

/-- The host's spelling: the weights transposed, then the plain product, at (i, j): the same sum. -/
theorem dotGeneral_transpose_apply (l : FVec Ideal ⟨2, ![N, K]⟩ .f32) (w : FVec Ideal ⟨2, ![M, K]⟩ .f32)
    (tr : (⟨2, ![M, K]⟩ : Shape).Transposes [1, 0] ⟨2, ![K, M]⟩) (i : Fin N) (j : Fin M) :
    Host.dotGeneral (DotDims.plain N K M) none l (transpose ⟨2, ![K, M]⟩ [1, 0] w tr) (ix2 i j)
      = ∑ k : Fin K, l (ix2 i k) * w (ix2 j k) := by
  rw [dotGeneral_plain_apply]
  exact Finset.sum_congr rfl fun k _ => by rw [transpose_ix2_apply]

end Idealize.ShloMosaic.Rows

end
-- ==== Proof.SqDist.lean ====
/-
  The squared distance between two real vectors, in the two arrangements this certificate meets, and
  the map both programs apply to it — on the extended reals.

  For real vectors a, b of one length,
      ∑ₖ (bₖ − aₖ)²  =  ∑ₖ aₖ² + ∑ₖ bₖ² − 2 ∑ₖ aₖ bₖ ,
  and the left side is a sum of squares, so it is not negative: taking its maximum with 0 changes
  nothing. One program forms the right side, clamps it at 0 and multiplies by −1/2; the other forms
  the left side, negates it and divides by 2. Both exponents are therefore the same real number,
  −‖b − a‖² / 2, and everything applied afterwards (exp, 1 − ·, + ε, √) is applied to equal
  arguments. The expansion of the square distributes a product over a sum, which fails at the
  infinities of the extended reals: this is where the entries must be real numbers.
-/
import Idealize.ShloMosaic.PureOps.Ideal
import Idealize.ShloMosaic.PureOps.Ideal.Laws
import Idealize.ShloMosaic.Lib.ValueIdx

noncomputable section

namespace Cert.SqDist

open Idealize.ShloMosaic

/-! ## Finite sums of real numbers inside the extended reals -/

/-- The inclusion of the reals commutes with a finite sum. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-! ## The three words whose values the law uses -/

theorem word_two : Ideal.ofBits .f32 0x40000000#32 = ((2 : ℝ) : EReal) := by
  simp [Ideal.ofBits, Ideal.ieee, -EReal.coe_mul]; norm_num

theorem word_neg_half : Ideal.ofBits .f32 0xBF000000#32 = ((-(1 / 2) : ℝ) : EReal) := by
  simp [Ideal.ofBits, Ideal.ieee, -EReal.coe_mul]; norm_num

theorem word_zero : Ideal.ofBits .f32 0x00000000#32 = ((0 : ℝ) : EReal) := by
  rw [Ideal.ofBits_zero_f32]; rfl

/-! ## The identity over the reals -/

variable {K : ℕ}

/-- The square of a difference, summed: ∑ (b − a)² = ∑ a² + ∑ b² − 2 ∑ a b. -/
theorem sum_sq_sub (a b : Fin K → ℝ) :
    (∑ k, (b k - a k) * (b k - a k)) = (∑ k, a k * a k) + (∑ k, b k * b k) - 2 * ∑ k, a k * b k := by
  rw [Finset.mul_sum, ← Finset.sum_add_distrib, ← Finset.sum_sub_distrib]
  exact Finset.sum_congr rfl fun k _ => by ring

/-- A sum of squares is not negative. -/
theorem sum_sq_nonneg (a b : Fin K → ℝ) : 0 ≤ ∑ k, (b k - a k) * (b k - a k) :=
  Finset.sum_nonneg fun k _ => mul_self_nonneg _

/-! ## The two exponents -/

/-- The exponent as one program forms it: norms plus norms minus twice the inner product, clamped at 0, times −1/2. -/
def expandedExponent (a b : Fin K → EReal) : EReal :=
  max (((∑ k, a k * a k) + (∑ k, b k * b k)) - Ideal.ofBits .f32 0x40000000#32 * (∑ k, a k * b k))
      (Ideal.ofBits .f32 0x00000000#32) * Ideal.ofBits .f32 0xBF000000#32

/-- The exponent as the other forms it: the summed squared differences from 0, negated, divided by 2. -/
def directExponent (a b : Fin K → EReal) : EReal :=
  Ideal.div (-(Ideal.ofBits .f32 0x00000000#32 + ∑ k, (b k - a k) * (b k - a k))) (Ideal.ofBits .f32 0x40000000#32)

/-- On real vectors the two exponents are one number, −‖b − a‖² / 2. -/
theorem exponents_agree (a b : Fin K → ℝ) :
    expandedExponent (fun k => ((a k : ℝ) : EReal)) (fun k => ((b k : ℝ) : EReal))
      = directExponent (fun k => ((a k : ℝ) : EReal)) (fun k => ((b k : ℝ) : EReal)) := by
  unfold expandedExponent directExponent
  rw [word_two, word_zero, word_neg_half, Ideal.div_coe (by norm_num : (2 : ℝ) ≠ 0)]
  simp only [← EReal.coe_mul, ← EReal.coe_sub, coe_sum, ← EReal.coe_add, ← EReal.coe_neg]
  rw [← sum_sq_sub, max_eq_left (EReal.coe_le_coe_iff.mpr (sum_sq_nonneg a b)), ← EReal.coe_mul]
  congr 1
  ring

/-- The same for extended-real vectors whose every entry is a real number. -/
theorem exponents_agree_of_real {a b : Fin K → EReal} (ha : ∀ k, ∃ r : ℝ, a k = (r : EReal))
    (hb : ∀ k, ∃ r : ℝ, b k = (r : EReal)) : expandedExponent a b = directExponent a b := by
  choose ar har using ha
  choose br hbr using hb
  obtain rfl : a = fun k => ((ar k : ℝ) : EReal) := funext har
  obtain rfl : b = fun k => ((br k : ℝ) : EReal) := funext hbr
  exact exponents_agree ar br

/-! ## What is applied to the exponent -/

/-- √((1 − eˢ) + ε) with the two words the programs share, left as words. -/
def cimOf (s : EReal) : EReal :=
  Ideal.sqrt ((Ideal.ofBits .f32 0x3F800000#32 - Ideal.exp s) + Ideal.ofBits .f32 0x322BCC77#32)

/-! ## The map on whole arrays -/

open Idealize.ShloMosaic.ValueIdx

variable {B M R C : ℕ}

/-- Queries against a flat list of prototypes, the exponent in its expanded arrangement: entry (q, n) is the map of
    query row q against prototype row n. -/
def cimFlat (x : (⟨2, ![B, K]⟩ : Shape).Idx → EReal) (w : (⟨2, ![M, K]⟩ : Shape).Idx → EReal) :
    (⟨2, ![B, M]⟩ : Shape).Idx → EReal :=
  fun j => cimOf (expandedExponent (fun k => x (ix2 (j 0) k)) (fun k => w (ix2 (j 1) k)))

/-- Queries against a grid of prototypes, the exponent formed directly: entry (q, r, c) is the map of query row q
    against the prototype at (r, c). -/
def cimGrid (x : (⟨2, ![B, K]⟩ : Shape).Idx → EReal) (w : (⟨3, ![R, C, K]⟩ : Shape).Idx → EReal) :
    (⟨3, ![B, R, C]⟩ : Shape).Idx → EReal :=
  fun i => cimOf (directExponent (fun k => x (ix2 (i 0) k)) (fun k => w (ix3 (i 1) (i 2) k)))

theorem cimFlat_apply (x : (⟨2, ![B, K]⟩ : Shape).Idx → EReal) (w : (⟨2, ![M, K]⟩ : Shape).Idx → EReal) (p : Fin B) (q : Fin M) :
    cimFlat x w (ix2 p q) = cimOf (expandedExponent (fun k => x (ix2 p k)) (fun k => w (ix2 q k))) := rfl

/-- An entry of the flat map depends only on the query row and the prototype row it reads: the same rows, found in
    arrays of other heights at other positions, give the same entry. -/
theorem cimFlat_eq_of_rows {B' M' : ℕ} (x : (⟨2, ![B, K]⟩ : Shape).Idx → EReal) (w : (⟨2, ![M, K]⟩ : Shape).Idx → EReal)
    (x' : (⟨2, ![B', K]⟩ : Shape).Idx → EReal) (w' : (⟨2, ![M', K]⟩ : Shape).Idx → EReal)
    (j : (⟨2, ![B, M]⟩ : Shape).Idx) (j' : (⟨2, ![B', M']⟩ : Shape).Idx)
    (hx : ∀ k, x (ix2 (j 0) k) = x' (ix2 (j' 0) k)) (hw : ∀ k, w (ix2 (j 1) k) = w' (ix2 (j' 1) k)) :
    cimFlat x w j = cimFlat x' w' j' := by
  unfold cimFlat
  rw [funext hx, funext hw]

/-- The flat map against prototype row n is the grid map at (r, c) when row n of the flat prototypes is the prototype
    at (r, c) and every entry of the queries and of the prototypes is a real number. -/
theorem cimFlat_eq_cimGrid (x : (⟨2, ![B, K]⟩ : Shape).Idx → EReal) (w2 : (⟨2, ![M, K]⟩ : Shape).Idx → EReal)
    (w : (⟨3, ![R, C, K]⟩ : Shape).Idx → EReal) (b : Fin B) (n : Fin M) (r : Fin R) (c : Fin C)
    (hw2 : ∀ k, w2 (ix2 n k) = w (ix3 r c k))
    (hx : ∀ i, ∃ t : ℝ, x i = (t : EReal)) (hw : ∀ i, ∃ t : ℝ, w i = (t : EReal)) :
    cimFlat x w2 (ix2 b n) = cimGrid x w (ix3 b r c) := by
  rw [cimFlat_apply, funext hw2]
  exact congrArg cimOf (exponents_agree_of_real (fun k => hx _) (fun k => hw _))

end Cert.SqDist

end
-- ==== Proof.Payload.lean ====
/-
  What the kernel body computes from a block of query rows and the whole list of prototype rows.

  The body squares and sums each query row (one number per row, laid along the row), does the same for each
  prototype row (one number per prototype, laid down the column), forms every inner product of a query row with
  a prototype row by one matrix product contracting the feature axis of both, and then works entry by entry:
  norms plus norms minus twice the inner product, clamped at 0, times −1/2, exponentiated, and 1 − · + ε under
  a square root. Entry (p, q) of the result is therefore the map of query row p against prototype row q with the
  exponent in its expanded arrangement.
-/
import proofs.«101890_g9208409883400_cont_sun_m_1029_3_alg».proof.Proof.Gen.KernelIdeal.Skeleton
import proofs.«101890_g9208409883400_cont_sun_m_1029_3_alg».proof.Proof.LibRows
import proofs.«101890_g9208409883400_cont_sun_m_1029_3_alg».proof.Proof.LibDotT
import proofs.«101890_g9208409883400_cont_sun_m_1029_3_alg».proof.Proof.SqDist

noncomputable section

namespace Cert.KernelIdeal.Body

open Idealize.ShloMosaic Idealize.ShloMosaic.ValueIdx Idealize.ShloMosaic.Rows
open Cert.KernelIdeal Cert.KernelIdeal.Gen Cert.SqDist

variable {N K M : ℕ}

/-! ## The three quantities that are not entry-by-entry -/

/-- The squared norm of each row, laid along its row: at (p, q) it is ∑ₖ x(p,k)². -/
theorem row_norms_apply (x : FVec Ideal ⟨2, ![N, K]⟩ .f32) (h : (⟨2, ![N, K]⟩ : Shape).Reduces [1] ⟨1, ![N]⟩)
    (hφ : FKind.Formats .f32) (hacc : (0x00000000#32 : BitVec 32) = 0x00000000#32)
    (sc : (⟨1, ![N]⟩ : Shape).ShapeCasts ⟨2, ![N, 1]⟩) (bc : (⟨2, ![N, 1]⟩ : Shape).Broadcasts ⟨2, ![N, M]⟩)
    (p : Fin N) (q : Fin M) :
    broadcastTo ⟨2, ![N, M]⟩ (shapeCast ⟨2, ![N, 1]⟩ (multiReduction .add [1] ⟨1, ![N]⟩ (mulf x x) 0x00000000#32 h hφ hacc) sc) bc (ix2 p q)
      = ∑ k : Fin K, x (ix2 p k) * x (ix2 p k) := by
  have e : multiReduction .add [1] ⟨1, ![N]⟩ (mulf x x) 0x00000000#32 h hφ hacc
      = ofVals fun i => ∑ k : Fin K, rowOf (mulf x x) i k := ksum_eq (mulf x x) h hφ hacc
  rw [e, kcol_eq]
  rfl

/-- The squared norm of each row of the second operand, laid down the columns: at (p, q) it is ∑ₖ w(q,k)². -/
theorem col_norms_apply (w : FVec Ideal ⟨2, ![M, K]⟩ .f32) (h : (⟨2, ![M, K]⟩ : Shape).Reduces [1] ⟨1, ![M]⟩)
    (hφ : FKind.Formats .f32) (hacc : (0x00000000#32 : BitVec 32) = 0x00000000#32)
    (sc : (⟨1, ![M]⟩ : Shape).ShapeCasts ⟨2, ![1, M]⟩) (bc : (⟨2, ![1, M]⟩ : Shape).Broadcasts ⟨2, ![N, M]⟩)
    (p : Fin N) (q : Fin M) :
    broadcastTo ⟨2, ![N, M]⟩ (shapeCast ⟨2, ![1, M]⟩ (multiReduction .add [1] ⟨1, ![M]⟩ (mulf w w) 0x00000000#32 h hφ hacc) sc) bc (ix2 p q)
      = ∑ k : Fin K, w (ix2 q k) * w (ix2 q k) := by
  have e : multiReduction .add [1] ⟨1, ![M]⟩ (mulf w w) 0x00000000#32 h hφ hacc
      = ofVals fun i => ∑ k : Fin K, rowOf (mulf w w) i k := ksum_eq (mulf w w) h hφ hacc
  rw [broadcastTo_1b_ab_apply, shapeCast_a_1a_apply, e]
  rfl

/-- The printed contraction record: axis 1 of both operands contracted, no batch axis. -/
theorem dot_eq : dot_S128x256_S1024x256_S128x1024_1_1_0_0_n_n = DotDims.transposedRhs 128 256 1024 := rfl

/-- Every inner product of a query row with a prototype row: at (p, q) it is ∑ₖ x(p,k) · w(q,k). -/
theorem inner_apply (x : FVec Ideal S128x256 .f32) (w : FVec Ideal S1024x256 .f32)
    (p : Fin 128) (q : Fin 1024) :
    matmul dot_S128x256_S1024x256_S128x1024_1_1_0_0_n_n none x w (constant S128x1024 .f32 0x00000000#32) (ix2 p q)
      = ∑ k : Fin 256, x (ix2 p k) * w (ix2 q k) := by
  rw [dot_eq]
  exact matmul_trhs_apply x w p q

/-! ## The entry-by-entry part -/

/-- From the three quantities A, B, D, known at one entry, to the result there. -/
theorem epilogue_apply {s : Shape} (A B D : FVec Ideal s .f32) (i : s.Idx) {a b d : EReal}
    (ha : A i = a) (hb : B i = b) (hd : D i = d) :
    sqrt (addf (subf (broadcast s (Scalar.ofBits (F := Ideal) .f32 0x3F800000#32))
        (exp (mulf (maximumf (subf (addf A B) (mulf (broadcast s (Scalar.ofBits (F := Ideal) .f32 0x40000000#32)) D))
          (broadcast s (Scalar.ofBits (F := Ideal) .f32 0x00000000#32))) (broadcast s (Scalar.ofBits (F := Ideal) .f32 0xBF000000#32)))))
        (broadcast s (Scalar.ofBits (F := Ideal) .f32 0x322BCC77#32))) i
      = cimOf (max ((a + b) - Ideal.ofBits .f32 0x40000000#32 * d) (Ideal.ofBits .f32 0x00000000#32) * Ideal.ofBits .f32 0xBF000000#32) := by
  subst ha hb hd
  rfl

/-! ## The body's result -/

/-- The stored value: entry (p, q) is the map of query row p against prototype row q. -/
theorem payload_eq (v0 : Vec Ideal S128x256 .f32) (v1 : Vec Ideal S1024x256 .f32) :
    k0_pay1 (F := Ideal) v0 v1 = cimFlat v0 v1 := by
  refine ext_ix2 fun p q => ?_
  have hw : shapeCast S1024x256 v1 shapeCasts_S1024x256_S1024x256 = v1 := shapeCast_self v1 _
  unfold k0_pay1
  rw [hw]
  exact epilogue_apply _ _ _ (ix2 p q) (row_norms_apply v0 _ _ _ _ _ p q) (col_norms_apply v1 _ _ _ _ _ p q)
    (inner_apply v0 v1 p q)

end Cert.KernelIdeal.Body

end
-- ==== Proof.KernelValue.lean ====
/-
  The kernel's run, read: what its result array holds at the end.

  The launch has four points; point t takes query rows 128·t … 128·t + 127 and the whole list of prototypes, and
  writes back rows 128·t … 128·t + 127 of a 512 × 1024 array. What it writes is the flat map of its query block
  against the prototypes, which is the corresponding block of the flat map of ALL the queries: an entry depends only
  on its own query row and prototype row. The four blocks tile the array, so the array ends as the flat map. The host
  reshapes the prototypes before the launch and the result after it.
-/
import proofs.«101890_g9208409883400_cont_sun_m_1029_3_alg».proof.Proof.Gen.KernelIdeal.Frame
import proofs.«101890_g9208409883400_cont_sun_m_1029_3_alg».proof.Proof.Payload
import Idealize.ShloMosaic.Lib.Pipeline.Value
import Idealize.ShloMosaic.Lib.StableHlo.Run

set_option maxRecDepth 16384

noncomputable section

namespace Cert.KernelIdeal.RunValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Body Cert.SqDist

variable (m : (ℓ : Loc nD τ sig) → Buf (Elt Ideal) ℓ) (ρ : Dev nD → PrngReg)

theorem offset_zero : (![0, 0] : Fin 2 → Nat) = fun _ => 0 := funext fun a => by fin_cases a <;> rfl

/-- The printed index maps over the four points: the query window moves with the output window along the rows, the
    prototype window stays at the origin, and the output window's row block is the point's number. -/
theorem block_indices : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 :=
  (by decide +kernel : ∀ t : Fin grid0.N, _)

/-- Every row block of the output is some point's. -/
theorem block_onto : ∀ q0 : Fin 4, ∃ t : Fin cfg0.N, win0_2.index t = ![q0.val, 0] :=
  (by decide +kernel : ∀ q0 : Fin 4, ∃ t : Fin grid0.N, win0_2.index t = ![q0.val, 0])

/-- The prototypes as the launch finds them: the host's reshape of the second argument. -/
theorem V_prototypes (c : Dev nD) :
    V m c main_v0 = shapeCast S1024x256 (m ((c : Thread nD τ).loc main_arg1)) shapeCasts_S32x32x256_S1024x256 := by
  show StableHlo.after hostOps0 (fun b => m (c, b)) (Proc.devRef .tc main_v0) = _
  after_results
  rfl

/-- What point t writes back is block t of the flat map of all the queries against the prototypes. -/
theorem flushed_eq (c : Dev nD) (t : Fin cfg0.N) :
    (dats m 0 c).flushed 2 t = ((cfg0.win 2).blk t).view.read (Elt Ideal) (cimFlat (V m c main_arg0) (V m c main_v0)) := by
  show (cfg0.win 2).cut (grid0.coords t) ((dats m 0 c).after 2 t) = _
  rw [after0_2]
  unfold out0_2
  rw [View.canon_unit_zero offset_zero]
  simp only [View.ld_unit_zero (S := S128x256) offset_zero, View.ld_unit_zero (S := S1024x256) offset_zero]
  rw [payload_eq]
  obtain ⟨e0, e1, e2, e3, e4⟩ := block_indices t
  funext j
  obtain ⟨p, q, rfl⟩ : ∃ (p : Fin 128) (q : Fin 1024), j = ix2 p q := ⟨j 0, j 1, eq_ix2 j⟩
  show cimFlat (iblk m c 0 t) (iblk m c 1 t) (ix2 p q)
    = cimFlat (V m c main_arg0) (V m c main_v0) (((cfg0.win 2).blk t).view.emb (ix2 p q))
  refine cimFlat_eq_of_rows _ _ _ _ _ _ (fun k => ?_) (fun k => ?_)
  · show V m c main_arg0 (((cfg0.win 0).blk t).view.emb (ix2 p k)) = V m c main_arg0 _
    refine congrArg (V m c main_arg0) (funext fun a => Fin.ext ?_)
    match a with
    | ⟨0, _⟩ => show win0_0.index t (0 : Fin 2) * 128 + 1 * p.val = win0_2.index t (0 : Fin 2) * 128 + 1 * p.val; omega
    | ⟨1, _⟩ => show win0_0.index t (1 : Fin 2) * 256 + 1 * k.val = k.val; omega
  · show V m c main_v0 (((cfg0.win 1).blk t).view.emb (ix2 q k)) = V m c main_v0 _
    refine congrArg (V m c main_v0) (funext fun a => Fin.ext ?_)
    match a with
    | ⟨0, _⟩ => show win0_1.index t (0 : Fin 2) * 1024 + 1 * q.val = win0_2.index t (1 : Fin 2) * 1024 + 1 * q.val; omega
    | ⟨1, _⟩ => show win0_1.index t (1 : Fin 2) * 256 + 1 * k.val = k.val; omega

/-- An index of the output array is in point t's block iff each coordinate is in the block's range on its axis. -/
theorem mem_block (t : Fin cfg0.N) (i : S512x1024.Idx) :
    i ∈ ((cfg0.win 2).blk t).view.set ↔ ∀ a : Fin 2, win0_2.index t a * S128x1024.size a ≤ (i a).val
      ∧ (i a).val < win0_2.index t a * S128x1024.size a + S128x1024.size a := by
  show i ∈ ((View.whole main_v1).slice (win0_2.rect t)).set ↔ _
  rw [View.set_slice_whole, Rect.mem_set_unit]
  exact Iff.rfl

/-- Every index of the output array is in the block of the point numbered by its row divided by 128. -/
theorem covered (i : S512x1024.Idx) :
    ∃ t : Fin cfg0.N, (cfg0.win 2).flush t = true ∧ i ∈ ((cfg0.win 2).blk t).view.set := by
  have hi0 : (i 0).val < 512 := (i 0).isLt
  have hi1 : (i 1).val < 1024 := (i 1).isLt
  obtain ⟨t, ht⟩ := block_onto ⟨(i 0).val / 128, by omega⟩
  have q0 : win0_2.index t (0 : Fin 2) = (i 0).val / 128 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 128 ≤ (i 0).val ∧ (i 0).val < win0_2.index t (0 : Fin 2) * 128 + 128; omega
  | ⟨1, _⟩ => show win0_2.index t (1 : Fin 2) * 1024 ≤ (i 1).val ∧ (i 1).val < win0_2.index t (1 : Fin 2) * 1024 + 1024; omega

/-- The output array after the launch is the flat map of the queries against the prototypes as the launch found them. -/
theorem final (c : Dev nD) : (dats m 0 c).arrAt 2 cfg0.N = cimFlat (V m c main_arg0) (V m c main_v0) :=
  (dats m 0 c).arrAt_eq_of_cover 2 _ (fun t _ => flushed_eq m c t) covered

/-- The program's result: the host's reshape of that array to the grid. -/
theorem result_eq (c : Dev nD) :
    Pipeline.afterTail₀ cfgs (dats m) 0 (V0 m) [hostOps1] c main_v2
      = shapeCast S512x32x32 (cimFlat (m ((c : Thread nD τ).loc main_arg0))
          (shapeCast S1024x256 (m ((c : Thread nD τ).loc main_arg1)) shapeCasts_S32x32x256_S1024x256))
          shapeCasts_S512x1024_S512x32x32 := by
  have e : Pipeline.withArrays (cfgs 0).spec c (V0 m c) (fun w => (dats m 0 c).arrAt w (cfgs 0).N) (Proc.devRef .tc main_v1)
      = cimFlat (m ((c : Thread nD τ).loc main_arg0))
          (shapeCast S1024x256 (m ((c : Thread nD τ).loc main_arg1)) shapeCasts_S32x32x256_S1024x256) := by
    refine (Pipeline.withArrays_arr spec0 launch0.win.arr_inj c (V0 m c) (fun w => (dats m 0 c).arrAt w cfg0.N) 2).trans ?_
    rw [final, V_main_arg0, V_prototypes]
  unfold Pipeline.afterTail₀
  show StableHlo.after hostOps1 _ (Proc.devRef .tc main_v2) = _
  after_results
  exact congrArg (fun A : S512x1024.Idx → EReal => shapeCast S512x32x32 A shapeCasts_S512x1024_S512x32x32) e

/-- The run: every weakly fair execution terminates with the result array at the reshaped flat map of the arguments
    and the arguments unchanged. -/
theorem run : θ_run defs (onTc (τ := τ) (main (F := Ideal))) ⟨m, fun _ => 0, ρ⟩ fun r => ∀ c : Dev nD,
      r.2.mem ((c.tc : Thread nD τ).loc main_v2)
        = shapeCast S512x32x32 (cimFlat (m ((c : Thread nD τ).loc main_arg0))
            (shapeCast S1024x256 (m ((c : Thread nD τ).loc main_arg1)) shapeCasts_S32x32x256_S1024x256))
            shapeCasts_S512x1024_S512x32x32
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v2 (Pipeline.mem_restRefs_of main_v2 (by decide) (by decide))).trans (result_eq m c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c)⟩)
    (run_main m ρ)

end Cert.KernelIdeal.RunValue

end
-- ==== Proof.RefValue.lean ====
/-
  The reference's result is the map on a grid of prototypes, the exponent formed directly.

  The reference lays the queries and the prototypes out over one four-axis array (query, grid row, grid column,
  feature), subtracts, squares, sums the feature axis from 0, negates, divides by 2, exponentiates, and takes
  1 − · + ε under a square root. Read at (q, r, c): the feature-k entry of the difference is w(r,c,k) − x(q,k),
  so the exponent is −(0 + ∑ₖ (w(r,c,k) − x(q,k))²) / 2.
-/
import proofs.«101890_g9208409883400_cont_sun_m_1029_3_alg».proof.Proof.Gen.ReferenceIdeal.Read
import proofs.«101890_g9208409883400_cont_sun_m_1029_3_alg».proof.Proof.SqDist

noncomputable section

namespace Cert.ReferenceIdeal.RefValue

open Idealize.ShloMosaic Idealize.ShloMosaic.ValueIdx
open Cert.ReferenceIdeal Cert.ReferenceIdeal.Read Cert.SqDist

/-- Where the summed array reads the prototypes: grid position (r, c), feature k. -/
theorem idx_prototype (i : S512x32x32.Idx) (k : Fin 256) :
    idx_main_v1 (idx_main_v2 (idx_main_v6 i k)) = ix3 (i 1) (i 2) k :=
  funext fun a => Fin.ext (by match a with | ⟨0, _⟩ => rfl | ⟨1, _⟩ => rfl | ⟨2, _⟩ => rfl)

/-- Where it reads the queries: row q, feature k. -/
theorem idx_query (i : S512x32x32.Idx) (k : Fin 256) :
    idx_main_v0 (idx_main_v3 (idx_main_v6 i k)) = ix2 (i 0) k :=
  funext fun a => Fin.ext (by match a with | ⟨0, _⟩ => rfl | ⟨1, _⟩ => rfl)

/-- The reference's last stage, entry by entry, is the map on the grid. -/
theorem result_eq (x0 : FVec Ideal S512x256 .f32) (x1 : FVec Ideal S32x32x256 .f32) :
    val_main_v15 (F := Ideal) x0 x1 = cimGrid x0 x1 := by
  funext i
  rw [val_main_v15_apply, val_main_v14_apply, val_main_v12_apply, val_main_v13_apply, val_main_cst_2_apply,
    val_main_v11_apply, val_main_cst_1_apply, val_main_v10_apply, val_main_v9_apply, val_main_v8_apply,
    val_main_cst_0_apply, val_main_v7_apply, val_main_v6_apply, val_main_cst_apply]
  simp only [val_main_v5_apply, val_main_v4_apply, val_main_v3_apply, val_main_v2_apply, val_main_v1_apply,
    val_main_v0_apply, idx_prototype, idx_query]
  rfl

end Cert.ReferenceIdeal.RefValue

end
-- ==== Proof.Regrid.lean ====
/-
  The flat list of prototypes and the grid of prototypes are one array read two ways.

  Reshaping a 32 × 32 × 256 array to 1024 × 256 keeps the row-major order: row r·32 + c of the flat array is the
  prototype at grid position (r, c). Reshaping a 512 × 1024 result to 512 × 32 × 32 does the same on the output side:
  entry (q, r, c) of the reshaped result is entry (q, r·32 + c) of the flat one. So the flat map computed against the
  reshaped prototypes, reshaped to the grid, is — entry by entry, on real inputs — the grid map.
-/
import proofs.«101890_g9208409883400_cont_sun_m_1029_3_alg».proof.Proof.SqDist
import Idealize.ShloMosaic.Lib.Pipeline.Value

noncomputable section

namespace Cert.SqDist

open Idealize.ShloMosaic Idealize.ShloMosaic.ValueIdx

/-- Row r·32 + c of the reshaped prototypes is the prototype at (r, c). -/
theorem reshaped_prototype (w : (⟨3, ![32, 32, 256]⟩ : Shape).Idx → EReal)
    (h : (⟨3, ![32, 32, 256]⟩ : Shape).ShapeCasts ⟨2, ![1024, 256]⟩) (r c : Fin 32) (hn : r.val * 32 + c.val < 1024) (k : Fin 256) :
    shapeCast ⟨2, ![1024, 256]⟩ w h (ix2 ⟨r.val * 32 + c.val, hn⟩ k) = w (ix3 r c k) :=
  shapeCast_apply w h (ix2 ⟨r.val * 32 + c.val, hn⟩ k) (ix3 r c k) (by
    rw [Shape.rowMajor_val_three, Shape.rowMajor_val_two]
    show (r.val * 32 + c.val) * 256 + k.val = (r.val * 32 + c.val) * 256 + k.val
    rfl)

/-- The flat map against the reshaped prototypes, reshaped to the grid, is the grid map when every input entry is real. -/
theorem flat_reshaped_eq_grid (x : (⟨2, ![512, 256]⟩ : Shape).Idx → EReal) (w : (⟨3, ![32, 32, 256]⟩ : Shape).Idx → EReal)
    (h1 : (⟨3, ![32, 32, 256]⟩ : Shape).ShapeCasts ⟨2, ![1024, 256]⟩)
    (h2 : (⟨2, ![512, 1024]⟩ : Shape).ShapeCasts ⟨3, ![512, 32, 32]⟩)
    (hx : ∀ i, ∃ t : ℝ, x i = (t : EReal)) (hw : ∀ i, ∃ t : ℝ, w i = (t : EReal)) :
    shapeCast ⟨3, ![512, 32, 32]⟩ (cimFlat x (shapeCast ⟨2, ![1024, 256]⟩ w h1)) h2 = cimGrid x w := by
  funext i
  obtain ⟨b, r, c, rfl⟩ : ∃ (b : Fin 512) (r : Fin 32) (c : Fin 32), i = ix3 b r c := ⟨i 0, i 1, i 2, eq_ix3 i⟩
  have hn : r.val * 32 + c.val < 1024 := by have := r.isLt; have := c.isLt; omega
  refine (shapeCast_apply _ h2 (ix3 b r c) (ix2 b ⟨r.val * 32 + c.val, hn⟩) (by
    rw [Shape.rowMajor_val_two, Shape.rowMajor_val_three]
    show b.val * 1024 + (r.val * 32 + c.val) = (b.val * 32 + r.val) * 32 + c.val
    omega)).trans ?_
  exact cimFlat_eq_cimGrid x _ w b _ r c (fun k => reshaped_prototype w h1 r c hn k) hx hw

end Cert.SqDist

end
-- ==== Proof.Finite.lean ====
/-
  The precondition read: every entry of both inputs is a real number.

  The precondition says, of each input array, that every entry's absolute value compares below the word of +∞,
  and joins the two statements by "and". On the extended reals |x| = max x (−x) is +∞ exactly at the two
  infinities, so an entry passing the comparison is neither of them: it is a real number.
-/
import proofs.«101890_g9208409883400_cont_sun_m_1029_3_alg».proof.Proof.Gen.Pre_finite_inputs
import Idealize.ShloMosaic.Lib.ReduceAll
import Idealize.ShloMosaic.Lib.Affine
import Idealize.ShloMosaic.Lib.IdealHost
import Idealize.ShloMosaic.Lib.ValueIdx
import Idealize.ShloMosaic.PureOps.Ideal

noncomputable section

namespace Cert.Finite

open Idealize.ShloMosaic Idealize.ShloMosaic.ValueIdx Cert.Pre_finite_inputs

/-- The word 0x7F800000 is +∞. -/
theorem word_inf : Ideal.ofBits .f32 0x7F800000#32 = (⊤ : EReal) := by
  simp [Ideal.ofBits, Ideal.ieee]

/-- An extended real whose absolute value is strictly below +∞ is a real number. -/
theorem real_of_abs_lt_top (x : EReal) (h : Ideal.cmp .olt (max x (-x)) ⊤ = 1#1) : ∃ r : ℝ, x = (r : EReal) := by
  induction x using EReal.rec with
  | bot => exact absurd h (by simp [Ideal.cmp])
  | coe r => exact ⟨r, rfl⟩
  | top => exact absurd h (by simp [Ideal.cmp])

/-- The result of a reduction over every axis has one index. -/
instance : Subsingleton S_.Idx := ⟨fun _ _ => funext fun d => d.elim0⟩

/-- One array's half of the precondition, entry by entry. -/
theorem real_of_all {s : Shape} (x : FVec Ideal s .f32) (hb : S_.BroadcastsInDim s ![]) (i : s.Idx)
    (e : cmpf .olt (Host.absf x) (broadcastInDim s ![] hb (constant (F := Ideal) S_ .f32 0x7F800000#32)) i = 1#1) :
    ∃ r : ℝ, x i = (r : EReal) := by
  rw [cmpf_apply, broadcastInDim_scalar_apply] at e
  refine real_of_abs_lt_top (x i) ?_
  rw [← word_inf]
  exact e

/-- Under the precondition every entry of the queries and of the prototypes is a real number. -/
theorem real_of_pre (x : FVec Ideal S512x256 .f32) (w : FVec Ideal S32x32x256 .f32)
    (h : Cert.Pre_finite_inputs.fn (F := Ideal) x w = fun _ => 1#1) :
    (∀ i, ∃ r : ℝ, x i = (r : EReal)) ∧ (∀ i, ∃ r : ℝ, w i = (r : EReal)) := by
  have h0 := congrFun h ix0
  dsimp only [Cert.Pre_finite_inputs.fn] at h0
  obtain ⟨hx, hw⟩ := IntOp.andi_eq_one.mp h0
  exact ⟨fun i => real_of_all x _ i (Host.reduce_andi_all _ _ _ _ ix0 hx i),
    fun i => real_of_all w _ i (Host.reduce_andi_all _ _ _ _ ix0 hw i)⟩

end Cert.Finite

end
-- ==== Proof.lean ====
/-
  The correntropy-induced metric of 512 queries against a 32 × 32 grid of prototypes in 256 features:
      out(q, r, c) = √( 1 − exp( −‖x_q − w_{r,c}‖² / 2 ) + ε ).

  The reference forms the squared distance directly, ∑ₖ (w_{r,c,k} − x_{q,k})², negates it and divides by 2.
  The kernel flattens the grid to 1024 prototype rows and, for each block of 128 queries, forms
  ‖x_q‖² + ‖w_n‖² − 2 x_q·w_n with one matrix product, clamps it at 0 and multiplies by −1/2; the host reshapes the
  512 × 1024 result back to the grid. On real entries the two exponents are one number: the square expands, and a
  sum of squares is not negative, so the clamp does nothing. Everything after the exponent is the same expression of
  the same two shared words, 1 and ε, which are never evaluated. The expansion needs the entries to be real numbers
  (a product does not distribute over a sum at the infinities), and that is what the precondition provides.

  Both programs' frames are the generated ones; the idealization rewrote nothing, so the kernel and its idealized
  print are one text. The value claim posts both runs at the grid map of the arguments.
-/
import proofs.«101890_g9208409883400_cont_sun_m_1029_3_alg».proof.Defs
import proofs.«101890_g9208409883400_cont_sun_m_1029_3_alg».proof.Proof.Gen.Kernel
import proofs.«101890_g9208409883400_cont_sun_m_1029_3_alg».proof.Proof.Gen.Kernel.Skeleton
import proofs.«101890_g9208409883400_cont_sun_m_1029_3_alg».proof.Proof.Gen.Kernel.Launch
import proofs.«101890_g9208409883400_cont_sun_m_1029_3_alg».proof.Proof.Gen.Kernel.Points
import proofs.«101890_g9208409883400_cont_sun_m_1029_3_alg».proof.Proof.Gen.Kernel.Frame
import proofs.«101890_g9208409883400_cont_sun_m_1029_3_alg».proof.Proof.Gen.KernelIdeal
import proofs.«101890_g9208409883400_cont_sun_m_1029_3_alg».proof.Proof.Gen.KernelIdeal.Skeleton
import proofs.«101890_g9208409883400_cont_sun_m_1029_3_alg».proof.Proof.Gen.KernelIdeal.Launch
import proofs.«101890_g9208409883400_cont_sun_m_1029_3_alg».proof.Proof.Gen.KernelIdeal.Points
import proofs.«101890_g9208409883400_cont_sun_m_1029_3_alg».proof.Proof.Gen.KernelIdeal.Frame
import proofs.«101890_g9208409883400_cont_sun_m_1029_3_alg».proof.Proof.Gen.ReferenceIdeal
import proofs.«101890_g9208409883400_cont_sun_m_1029_3_alg».proof.Proof.Gen.ReferenceIdeal.Run
import proofs.«101890_g9208409883400_cont_sun_m_1029_3_alg».proof.Proof.Gen.ReferenceIdeal.Read
import proofs.«101890_g9208409883400_cont_sun_m_1029_3_alg».proof.Proof.Gen.Pre_finite_inputs
import proofs.«101890_g9208409883400_cont_sun_m_1029_3_alg».proof.Proof.KernelValue
import proofs.«101890_g9208409883400_cont_sun_m_1029_3_alg».proof.Proof.RefValue
import proofs.«101890_g9208409883400_cont_sun_m_1029_3_alg».proof.Proof.Regrid
import proofs.«101890_g9208409883400_cont_sun_m_1029_3_alg».proof.Proof.Finite
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its idealized print. -/
theorem frame_kernel_ideal : Cert.frame_KernelIdeal := fun m ρ _ => Cert.KernelIdeal.Gen.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the grid map of the arguments: the kernel's reshaped flat map is the grid map
    because, under the precondition, every entry is real and the two exponents agree; the reference's last stage is
    the grid map as it stands. -/
theorem algebraic : Cert.algebraic_KernelIdeal_ReferenceIdeal := by
  intro m ρ m' ρ' hpre hagree
  refine ⟨fun c => Cert.SqDist.cimGrid
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun _ h c => ⟨(h c).1.trans ?_, (h c).2⟩)
      (Cert.KernelIdeal.RunValue.run m ρ)
    obtain ⟨hx, hw⟩ := Cert.Finite.real_of_pre _ _ (hpre c)
    exact Cert.SqDist.flat_reshaped_eq_grid _ _ _ _ hx hw
  · refine (θ_run Cert.ReferenceIdeal.defs _ _).mono (fun _ h c => ⟨?_, (h c).2⟩)
      (Cert.ReferenceIdeal.Value.run (F := Ideal) m' ρ')
    rw [(h c).1, Cert.ReferenceIdeal.Read.val_main_v15_eq, Cert.ReferenceIdeal.RefValue.result_eq,
      (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
